-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x4 .f32) : IVec S_ 1 :=
  let main_v0 : FVec F S4096x4 .f32 := Host.absf main_arg0
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  main_v3
-- ==== Kernel.lean ====
abbrev S4096x4 : Shape := ⟨2, ![4096, 4]⟩
abbrev S4x4096 : Shape := ⟨2, ![4, 4096]⟩
abbrev S4x4096x1 : Shape := ⟨3, ![4, 4096, 1]⟩
abbrev S4x1x4096 : Shape := ⟨3, ![4, 1, 4096]⟩
abbrev S8x4096x4096 : Shape := ⟨3, ![8, 4096, 4096]⟩
abbrev S1x2048x1 : Shape := ⟨3, ![1, 2048, 1]⟩
abbrev S1x1x2048 : Shape := ⟨3, ![1, 1, 2048]⟩
abbrev S1x2048x2048 : Shape := ⟨3, ![1, 2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x4, .f32⟩
  | .hbm, ⟨1, _⟩ => ⟨S4x4096, .f32⟩
  | .hbm, ⟨2, _⟩ => ⟨S4x4096x1, .f32⟩
  | .hbm, ⟨3, _⟩ => ⟨S4x1x4096, .f32⟩
  | .hbm, ⟨4, _⟩ => ⟨S8x4096x4096, .f32⟩
  | .local _ .vmem, ⟨0, _⟩ => ⟨S1x2048x1, .f32⟩
  | .local _ .vmem, ⟨1, _⟩ => ⟨S1x2048x1, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x2048, .f32⟩
  | .local _ .vmem, ⟨5, _⟩ => ⟨S1x2048x2048, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 4, 2, 2], ![false, false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![v1.toNat, arg2.toNat, arg3.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

class Facts₀ : Prop where
  transposes_S4096x4_S4x4096_1_0 : S4096x4.Transposes [1, 0] S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  broadcasts_S1x2048x1_S1x2048x2048 : S1x2048x1.Broadcasts S1x2048x2048
  inb_S1x2048x2048_S1x2048x2048_0_0_0 : ∀ a, (![0, 0, 0] : Fin 3 → Nat) a + S1x2048x2048.size a ≤ S1x2048x2048.size a
  h_S1x2048x2048 : 0 < S1x2048x2048.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  broadcasts_S1x1x2048_S1x2048x2048 : S1x1x2048.Broadcasts S1x2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S4x4096x1.size a
  hwx0_0 : ∀ i : grid0.Coords, EltTy.bits .f32 = 32 ∨ (Rect.block (s := S4x4096x1) S1x2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x4096.size a
  hwx0_1 : ∀ i : grid0.Coords, EltTy.bits .f32 = 32 ∨ (Rect.block (s := S4x1x4096) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S8x4096x4096.size a
  hwx0_2 : ∀ i : grid0.Coords, EltTy.bits .f32 = 32 ∨ (Rect.block (s := S8x4096x4096) S1x2048x2048.size (cc0_transform_2 i) (hinb0_2 i)).WholeWords (EltTy.packing .f32)

variable [Facts₀]

abbrev win0_0 : Pipeline.Window sig grid0 :=
  Pipeline.Window.ofSpec (Memref.whole main_v1) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x4 : Shape := ⟨2, ![4096, 4]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S8x4096x4096 : Shape := ⟨3, ![8, 4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4x4096, .f32⟩
  | .hbm, ⟨2, _⟩ => ⟨S4x4096x1, .f32⟩
  | .hbm, ⟨3, _⟩ => ⟨S4x4096x4096, .f32⟩
  | .hbm, ⟨4, _⟩ => ⟨S4x1x4096, .f32⟩
  | .hbm, ⟨5, _⟩ => ⟨S4x4096x4096, .f32⟩
  | .hbm, ⟨6, _⟩ => ⟨S8x4096x4096, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]

class Facts₀ : Prop where
  transposes_S4096x4_S4x4096_1_0 : S4096x4.Transposes [1, 0] S4x4096
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  concatenates_S4x4096x4096_S4x4096x4096_S8x4096x4096_d0 : Shape.Concatenates [S4x4096x4096, S4x4096x4096] S8x4096x4096 0

variable [Facts₀]

class Facts : Prop extends Facts₀ where

variable [Facts]
-- ==== Proof.Replicate.lean ====
/-
  The function both programs compute. From a table `x` of 4096 rows and 4 columns they build eight square
  planes of side 4096:
    plane `c < 4`  repeats column `c` of the table along each row:      entry (c, i, k) is `x i c`, whatever `k`;
    plane `c ≥ 4`  repeats column `c - 4` of the table down each column: entry (c, i, k) is `x k (c - 4)`, whatever `i`.
  No arithmetic touches an entry: every operation on either side only moves entries (a transposition, broadcasts
  along new or unit axes, one concatenation). So the function, and the laws about it, are stated over ANY entry
  type, and nothing here depends on the entries being finite.

  Two laws are proved here, each by reading the layout operations at one index:
    * `stacked_halves`: the transposed table broadcast to the four row-constant planes, the same broadcast to the four
      column-constant planes, and the two stacks concatenated along the plane axis, IS `planes x`;
    * `planes_low` / `planes_high` and `column_source_at` / `row_source_at`: the same readings with the index given by
      equations between coordinates, the form a block's embedded index meets them in;
    * `column_source` / `row_source`: the two intermediate arrays (the transposed table with a trailing, resp. a middle,
      unit axis) read at an index are the table's entries `x i b` and `x k b`.
-/
import Idealize.ShloMosaic.Lib.ValueIdx
import Idealize.ShloMosaic.Lib.Pipeline.Value

noncomputable section

namespace Cert.Replicate

open Idealize.ShloMosaic Idealize.ShloMosaic.ValueIdx

/-- The table: 4096 rows, 4 columns. -/
abbrev STable : Shape := ⟨2, ![4096, 4]⟩
/-- The table transposed. -/
abbrev STableT : Shape := ⟨2, ![4, 4096]⟩
/-- The transposed table with a trailing unit axis: what a row-constant plane is broadcast from. -/
abbrev SCol : Shape := ⟨3, ![4, 4096, 1]⟩
/-- The transposed table with a middle unit axis: what a column-constant plane is broadcast from. -/
abbrev SRow : Shape := ⟨3, ![4, 1, 4096]⟩
/-- Four planes. -/
abbrev SHalf : Shape := ⟨3, ![4, 4096, 4096]⟩
/-- All eight planes. -/
abbrev SPlanes : Shape := ⟨3, ![8, 4096, 4096]⟩

variable {α : Type}

/-- Entry (c, i, k) of the eight planes: the table's `x i c` in the first four, its `x k (c - 4)` in the last four. -/
def entry (x : STable.Idx → α) (c : Fin 8) (i k : Fin 4096) : α :=
  if h : c.val < 4 then x (ix2 i ⟨c.val, h⟩) else x (ix2 k ⟨c.val - 4, by omega⟩)

/-- The eight planes as one array. -/
def planes (x : STable.Idx → α) : SPlanes.Idx → α := fun j => entry x (j 0) (j 1) (j 2)

theorem planes_ix3 (x : STable.Idx → α) (c : Fin 8) (i k : Fin 4096) : planes x (ix3 c i k) = entry x c i k := rfl

/-- In the first four planes the entry is the table's at row `i`. -/
theorem entry_low (x : STable.Idx → α) (c : Fin 8) (i k : Fin 4096) (h : c.val < 4) :
    entry x c i k = x (ix2 i ⟨c.val, h⟩) := dif_pos h

/-- In the last four planes the entry is the table's at row `k`. -/
theorem entry_high (x : STable.Idx → α) (c : Fin 8) (i k : Fin 4096) (h : ¬ c.val < 4) :
    entry x c i k = x (ix2 k ⟨c.val - 4, by omega⟩) := dif_neg h

/-- An entry of the first four planes is the table's entry at any index with row `j 1` and column `j 0`. -/
theorem planes_low (x : STable.Idx → α) (j : SPlanes.Idx) (i : STable.Idx) (h : (j 0).val < 4)
    (h0 : (i 0).val = (j 1).val) (h1 : (i 1).val = (j 0).val) : planes x j = x i := by
  obtain ⟨c, p, q, rfl⟩ : ∃ (c : Fin 8) (p q : Fin 4096), j = ix3 c p q := ⟨j 0, j 1, j 2, eq_ix3 j⟩
  rw [planes_ix3, entry_low x c p q h]
  exact congrArg x (funext fun a => Fin.ext (match a with
    | ⟨0, _⟩ => h0.symm
    | ⟨1, _⟩ => h1.symm))

/-- An entry of the last four planes is the table's entry at any index with row `j 2` and column `j 0 - 4`. -/
theorem planes_high (x : STable.Idx → α) (j : SPlanes.Idx) (i : STable.Idx) (h : ¬ (j 0).val < 4)
    (h0 : (i 0).val = (j 2).val) (h1 : (i 1).val + 4 = (j 0).val) : planes x j = x i := by
  obtain ⟨c, p, q, rfl⟩ : ∃ (c : Fin 8) (p q : Fin 4096), j = ix3 c p q := ⟨j 0, j 1, j 2, eq_ix3 j⟩
  rw [planes_ix3, entry_high x c p q h]
  have h1' : (i 1).val + 4 = c.val := h1
  exact congrArg x (funext fun a => Fin.ext (match a with
    | ⟨0, _⟩ => h0.symm
    | ⟨1, _⟩ => by show c.val - 4 = (i 1).val; omega))

/-- The transposed table with a trailing unit axis, at any index `k`, is the table's entry at row `k 1`, column `k 0`. -/
theorem column_source_at (x : STable.Idx → α) (hT : STable.Transposes [1, 0] STableT)
    (hc : STableT.BroadcastsInDim SCol (![0, 1] : Fin 2 → Fin SCol.rank)) (k : SCol.Idx) (i : STable.Idx)
    (h0 : (i 0).val = (k 1).val) (h1 : (i 1).val = (k 0).val) :
    broadcastInDim SCol ![0, 1] hc (transpose STableT [1, 0] x hT) k = x i := by
  rw [broadcastInDim_apply _ hc _ k (ix2 (⟨(k 0).val, (k 0).isLt⟩ : Fin 4) (⟨(k 1).val, (k 1).isLt⟩ : Fin 4096) : STableT.Idx)
    (fun a => match a with
      | ⟨0, _⟩ => by show (k 0).val = if (4 : Nat) = 1 then 0 else (k 0).val; rw [if_neg (by decide)]
      | ⟨1, _⟩ => by show (k 1).val = if (4096 : Nat) = 1 then 0 else (k 1).val; rw [if_neg (by decide)])]
  exact transpose_apply [1, 0] x hT _ i (fun a => match a with
    | ⟨0, _⟩ => h1
    | ⟨1, _⟩ => h0)

/-- The transposed table with a middle unit axis, at any index `k`, is the table's entry at row `k 2`, column `k 0`. -/
theorem row_source_at (x : STable.Idx → α) (hT : STable.Transposes [1, 0] STableT)
    (hr : STableT.BroadcastsInDim SRow (![0, 2] : Fin 2 → Fin SRow.rank)) (k : SRow.Idx) (i : STable.Idx)
    (h0 : (i 0).val = (k 2).val) (h1 : (i 1).val = (k 0).val) :
    broadcastInDim SRow ![0, 2] hr (transpose STableT [1, 0] x hT) k = x i := by
  rw [broadcastInDim_apply _ hr _ k (ix2 (⟨(k 0).val, (k 0).isLt⟩ : Fin 4) (⟨(k 2).val, (k 2).isLt⟩ : Fin 4096) : STableT.Idx)
    (fun a => match a with
      | ⟨0, _⟩ => by show (k 0).val = if (4 : Nat) = 1 then 0 else (k 0).val; rw [if_neg (by decide)]
      | ⟨1, _⟩ => by show (k 2).val = if (4096 : Nat) = 1 then 0 else (k 2).val; rw [if_neg (by decide)])]
  exact transpose_apply [1, 0] x hT _ i (fun a => match a with
    | ⟨0, _⟩ => h1
    | ⟨1, _⟩ => h0)

/-- The transposed table with a trailing unit axis, at (b, i, 0), is the table's entry at row `i`, column `b`. -/
theorem column_source (x : STable.Idx → α) (hT : STable.Transposes [1, 0] STableT)
    (hc : STableT.BroadcastsInDim SCol (![0, 1] : Fin 2 → Fin SCol.rank)) (b : Fin 4) (i : Fin 4096) (z : Fin 1) :
    broadcastInDim SCol ![0, 1] hc (transpose STableT [1, 0] x hT) (ix3 b i z) = x (ix2 i b) := by
  rw [broadcastInDim_apply _ hc _ (ix3 b i z : SCol.Idx) (ix2 b i : STableT.Idx) (fun a => match a with
    | ⟨0, _⟩ => by show b.val = if (4 : Nat) = 1 then 0 else b.val; rw [if_neg (by decide)]
    | ⟨1, _⟩ => by show i.val = if (4096 : Nat) = 1 then 0 else i.val; rw [if_neg (by decide)])]
  exact transpose_apply [1, 0] x hT (ix2 b i : STableT.Idx) (ix2 i b : STable.Idx) (fun a => match a with
    | ⟨0, _⟩ => rfl
    | ⟨1, _⟩ => rfl)

/-- The transposed table with a middle unit axis, at (b, 0, k), is the table's entry at row `k`, column `b`. -/
theorem row_source (x : STable.Idx → α) (hT : STable.Transposes [1, 0] STableT)
    (hr : STableT.BroadcastsInDim SRow (![0, 2] : Fin 2 → Fin SRow.rank)) (b : Fin 4) (z : Fin 1) (k : Fin 4096) :
    broadcastInDim SRow ![0, 2] hr (transpose STableT [1, 0] x hT) (ix3 b z k) = x (ix2 k b) := by
  rw [broadcastInDim_apply _ hr _ (ix3 b z k : SRow.Idx) (ix2 b k : STableT.Idx) (fun a => match a with
    | ⟨0, _⟩ => by show b.val = if (4 : Nat) = 1 then 0 else b.val; rw [if_neg (by decide)]
    | ⟨1, _⟩ => by show k.val = if (4096 : Nat) = 1 then 0 else k.val; rw [if_neg (by decide)])]
  exact transpose_apply [1, 0] x hT (ix2 b k : STableT.Idx) (ix2 k b : STable.Idx) (fun a => match a with
    | ⟨0, _⟩ => rfl
    | ⟨1, _⟩ => rfl)

/-- Four row-constant planes stacked on four column-constant planes are the eight planes: below the seam an index
    reads the first stack, whose broadcast drops the last coordinate; from the seam on it reads the second stack four
    planes lower, whose broadcast drops the middle coordinate. -/
theorem stacked_halves (x : STable.Idx → α) (hT : STable.Transposes [1, 0] STableT)
    (hc : STableT.BroadcastsInDim SCol (![0, 1] : Fin 2 → Fin SCol.rank))
    (hcc : SCol.BroadcastsInDim SHalf (![0, 1, 2] : Fin 3 → Fin SHalf.rank))
    (hr : STableT.BroadcastsInDim SRow (![0, 2] : Fin 2 → Fin SRow.rank))
    (hrr : SRow.BroadcastsInDim SHalf (![0, 1, 2] : Fin 3 → Fin SHalf.rank))
    (hcat : Shape.Concatenates [SHalf, SHalf] SPlanes 0) :
    concatenate SPlanes 0
      [⟨SHalf, broadcastInDim SHalf ![0, 1, 2] hcc (broadcastInDim SCol ![0, 1] hc (transpose STableT [1, 0] x hT))⟩,
       ⟨SHalf, broadcastInDim SHalf ![0, 1, 2] hrr (broadcastInDim SRow ![0, 2] hr (transpose STableT [1, 0] x hT))⟩] hcat
      = planes x := by
  funext j
  obtain ⟨c, i, k, rfl⟩ : ∃ (c : Fin 8) (i k : Fin 4096), j = ix3 c i k := ⟨j 0, j 1, j 2, eq_ix3 j⟩
  rw [planes_ix3]
  by_cases h : c.val < 4
  · rw [entry_low x c i k h]
    rw [concatenate_pair_apply_left (t := SPlanes) (s₁ := SHalf) (s₂ := SHalf) (0 : Fin 3) _ _ hcat (ix3 c i k : SPlanes.Idx) rfl
      (ix3 (⟨c.val, h⟩ : Fin 4) i k : SHalf.Idx) (fun a => match a with
        | ⟨0, _⟩ => rfl
        | ⟨1, _⟩ => rfl
        | ⟨2, _⟩ => rfl)]
    rw [broadcastInDim_apply _ hcc _ (ix3 (⟨c.val, h⟩ : Fin 4) i k : SHalf.Idx) (ix3 (⟨c.val, h⟩ : Fin 4) i (0 : Fin 1) : SCol.Idx)
      (fun a => match a with
        | ⟨0, _⟩ => by show c.val = if (4 : Nat) = 1 then 0 else c.val; rw [if_neg (by decide)]
        | ⟨1, _⟩ => by show i.val = if (4096 : Nat) = 1 then 0 else i.val; rw [if_neg (by decide)]
        | ⟨2, _⟩ => by show 0 = if (1 : Nat) = 1 then 0 else k.val; rw [if_pos rfl])]
    exact column_source x hT hc ⟨c.val, h⟩ i 0
  · rw [entry_high x c i k h]
    have hlt : c.val - 4 < 4 := by omega
    rw [concatenate_pair_apply_right (t := SPlanes) (s₁ := SHalf) (s₂ := SHalf) (0 : Fin 3) _ _ hcat (ix3 c i k : SPlanes.Idx) rfl rfl
      (ix3 (⟨c.val - 4, hlt⟩ : Fin 4) i k : SHalf.Idx)
      (fun a ha => match a, ha with
        | ⟨0, _⟩, ha => absurd rfl ha
        | ⟨1, _⟩, _ => rfl
        | ⟨2, _⟩, _ => rfl)
      (by show (c.val - 4) + 4 = c.val; omega)]
    rw [broadcastInDim_apply _ hrr _ (ix3 (⟨c.val - 4, hlt⟩ : Fin 4) i k : SHalf.Idx)
      (ix3 (⟨c.val - 4, hlt⟩ : Fin 4) (0 : Fin 1) k : SRow.Idx)
      (fun a => match a with
        | ⟨0, _⟩ => by show c.val - 4 = if (4 : Nat) = 1 then 0 else c.val - 4; rw [if_neg (by decide)]
        | ⟨1, _⟩ => by show 0 = if (1 : Nat) = 1 then 0 else i.val; rw [if_pos rfl]
        | ⟨2, _⟩ => by show k.val = if (4096 : Nat) = 1 then 0 else k.val; rw [if_neg (by decide)])]
    exact row_source x hT hr ⟨c.val - 4, hlt⟩ 0 k

end Cert.Replicate

end
-- ==== Proof.KernelBody.lean ====
/-
  What the kernel's body leaves in its output block, and what its two input arrays are.

  Before the grid runs, the program transposes the table `x` (4096 rows, 4 columns) and gives the transpose a trailing
  unit axis (the "column" array, entry (b, i, 0) = `x i b`) and a middle unit axis (the "row" array, entry
  (b, 0, k) = `x k b`). At a grid point the body sees one block of each — 2048 consecutive entries of one plane `b` —
  and an output block of 2048 × 2048 entries. In the first half of the grid it stores the column block repeated
  along every row of the output block (entry (0, r, q) of the block is the column block's entry (0, r, 0));
  in the second half it stores the row block repeated down every column (entry (0, r, q) is the row block's
  entry (0, 0, q)). Each case is ONE store that covers the whole output block, so what the block holds afterwards is
  that store's value, whatever the block held before.

  Nothing here computes with an entry, so everything is stated for any float instance.
-/
import proofs.«110674_j89575837926133_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.Planes

open Cert.KernelIdeal Cert.KernelIdeal.Gen

variable {F : FTy → Type} [FloatOps F]
variable (m : (ℓ : Loc nD τ sig) → Buf (Elt F) ℓ)

/-- The zero offset of a rank-3 access. -/
theorem zero_offset : (![0, 0, 0] : Fin 3 → Nat) = fun _ => 0 := funext fun a => by fin_cases a <;> rfl

/-! ## The two arrays the grid reads -/

/-- The column array when the grid starts: the table transposed, with a trailing unit axis. -/
theorem column_array (c : Dev nD) : (V m c main_v1 : S4x4096x1.Idx → Elt F .f32) =
    broadcastInDim S4x4096x1 ![0, 1] bcast_S4x4096_S4x4096x1_0_1
      (transpose S4x4096 [1, 0] (m ((c : Thread nD τ).loc main_arg0)) transposes_S4096x4_S4x4096_1_0) := by
  dsimp only [Gen.V, Gen.hostOps0]; after_results

/-- The row array when the grid starts: the table transposed, with a middle unit axis. -/
theorem row_array (c : Dev nD) : (V m c main_v2 : S4x1x4096.Idx → Elt F .f32) =
    broadcastInDim S4x1x4096 ![0, 2] bcast_S4x4096_S4x1x4096_0_2
      (transpose S4x4096 [1, 0] (m ((c : Thread nD τ).loc main_arg0)) transposes_S4096x4_S4x4096_1_0) := by
  dsimp only [Gen.V, Gen.hostOps0]; after_results

/-! ## What each half of the grid leaves in the output block -/

/-- First half: the one covering store's value, the broadcast of the column block `x0`. -/
theorem left_by_first_half (c : Dev nD) (i : grid0.Coords) (a4 : Memref sig .tc .vmem S1x2048x1 .f32) (h4 : a4.IsWhole)
    (a5 : Memref sig .tc .vmem S1x1x2048 .f32) (h5 : a5.IsWhole) (a6 : Memref sig .tc .vmem S1x2048x2048 .f32) (h6 : a6.IsWhole)
    (hc0 : cond0_0 i) (hc1 : ¬cond0_1 i) (x0 : Vec F S1x2048x1 .f32) (x1 : Vec F S1x1x2048 .f32) :
    out0_A_2 c i a4 h4 a5 h5 a6 h6 hc0 hc1 x0 x1 = k0_pay1 x0 := by
  unfold out0_A_2
  rw [View.read_writes_eq_canon _ _ _ (cover0_A_2 c i a4 h4 a5 h5 a6 h6 hc0 hc1 x0 x1)]
  unfold kernelRun0_A
  dsimp only
  sl_unfold_words
  rw [View.canon_unit_zero zero_offset]
  simp only [View.readAt_eq_ld, h4.read_unread, View.ld_unit_zero (S := S1x2048x1) zero_offset]

/-- Second half: the one covering store's value, the broadcast of the row block `x1`. -/
theorem left_by_second_half (c : Dev nD) (i : grid0.Coords) (a4 : Memref sig .tc .vmem S1x2048x1 .f32) (h4 : a4.IsWhole)
    (a5 : Memref sig .tc .vmem S1x1x2048 .f32) (h5 : a5.IsWhole) (a6 : Memref sig .tc .vmem S1x2048x2048 .f32) (h6 : a6.IsWhole)
    (hc0 : ¬cond0_0 i) (hc1 : cond0_1 i) (x0 : Vec F S1x2048x1 .f32) (x1 : Vec F S1x1x2048 .f32) :
    out0_B_2 c i a4 h4 a5 h5 a6 h6 hc0 hc1 x0 x1 = k0_pay2 x1 := by
  unfold out0_B_2
  rw [View.read_writes_eq_canon _ _ _ (cover0_B_2 c i a4 h4 a5 h5 a6 h6 hc0 hc1 x0 x1)]
  unfold kernelRun0_B
  dsimp only
  sl_unfold_words
  rw [View.canon_unit_zero zero_offset]
  simp only [View.readAt_eq_ld, h5.read_unread, View.ld_unit_zero (S := S1x1x2048) zero_offset]

/-! ## The two stored values at an index -/

/-- The column block broadcast along rows, at (·, r, q): the column block's entry on row `r` (the two shape casts
    are between equal shapes, the broadcast reads `0` on the block's unit axes). -/
theorem column_broadcast_at (x0 : Vec F S1x2048x1 .f32) (y : S1x2048x2048.Idx) (k : S1x2048x1.Idx)
    (h0 : (k 0).val = 0) (h1 : (k 1).val = (y 1).val) (h2 : (k 2).val = 0) : k0_pay1 x0 y = x0 k := by
  unfold k0_pay1
  simp only [shapeCast_self]
  exact broadcastTo_apply x0 broadcasts_S1x2048x1_S1x2048x2048 y k (fun a => match a with
    | ⟨0, _⟩ => by show (k 0).val = if (1 : Nat) = 1 then 0 else (y 0).val; rw [if_pos rfl]; exact h0
    | ⟨1, _⟩ => by show (k 1).val = if (2048 : Nat) = 1 then 0 else (y 1).val; rw [if_neg (by decide)]; exact h1
    | ⟨2, _⟩ => by show (k 2).val = if (1 : Nat) = 1 then 0 else (y 2).val; rw [if_pos rfl]; exact h2)

/-- The row block broadcast down columns, at (·, r, q): the row block's entry in column `q`. -/
theorem row_broadcast_at (x1 : Vec F S1x1x2048 .f32) (y : S1x2048x2048.Idx) (k : S1x1x2048.Idx)
    (h0 : (k 0).val = 0) (h1 : (k 1).val = 0) (h2 : (k 2).val = (y 2).val) : k0_pay2 x1 y = x1 k := by
  unfold k0_pay2
  simp only [shapeCast_self]
  exact broadcastTo_apply x1 broadcasts_S1x1x2048_S1x2048x2048 y k (fun a => match a with
    | ⟨0, _⟩ => by show (k 0).val = if (1 : Nat) = 1 then 0 else (y 0).val; rw [if_pos rfl]; exact h0
    | ⟨1, _⟩ => by show (k 1).val = if (1 : Nat) = 1 then 0 else (y 1).val; rw [if_pos rfl]; exact h1
    | ⟨2, _⟩ => by show (k 2).val = if (2048 : Nat) = 1 then 0 else (y 2).val; rw [if_neg (by decide)]; exact h2)

end Cert.KernelIdeal.Planes

end
-- ==== Proof.KernelBlocks.lean ====
/-
  From the output blocks to the whole result array.

  The grid has 32 points (g, b, i, k) with g ∈ {0, 1}, b ∈ {0..3}, i, k ∈ {0, 1}, numbered in that order, so the
  first 16 points have g = 0 and the last 16 have g = 1. Point (g, b, i, k) writes back block (4g + b, i, k) of the
  result: plane 4g + b, rows 2048 i … 2048 i + 2047, columns 2048 k … 2048 k + 2047. It reads block (b, i, 0) of
  the column array and block (b, 0, k) of the row array.

  * First half (g = 0): the output block's entry (0, r, q) is the column block's (0, r, 0), that is the column array's
    (b, 2048 i + r, 0), that is the table's entry at row 2048 i + r, column b — which is what the planes hold at
    (b, 2048 i + r, 2048 k + q), since b < 4.
  * Second half (g = 1): the entry is the row block's (0, 0, q), the row array's (b, 0, 2048 k + q), the table's entry
    at row 2048 k + q, column b — what the planes hold at (4 + b, 2048 i + r, 2048 k + q).

  So every block written back is the corresponding block of `Replicate.planes x`. The 32 blocks (8 planes × 2 × 2)
  cover the result: the block holding (p, r, q) is (p, r / 2048, q / 2048). Hence the result array IS `planes x`.

  The relations between the three index maps are decided once over the 32 points; a block's coordinate on an axis
  is its block index times the block's extent plus the coordinate inside the block.
-/
import proofs.«110674_j89575837926133_1_alg».proof.Proof.Gen.KernelIdeal.Value
import proofs.«110674_j89575837926133_1_alg».proof.Proof.KernelBody
import proofs.«110674_j89575837926133_1_alg».proof.Proof.Replicate

noncomputable section

open Idealize.ShloMosaic Idealize.ShloMosaic.TcCoe Idealize.SL.Sem Idealize.ShloMosaic.ValueIdx
open Idealize.ShloMosaic.Pipeline (Dat)

namespace Cert.KernelIdeal.Planes

open Cert.KernelIdeal Cert.KernelIdeal.Gen

variable {F : FTy → Type} [FloatOps F]
variable (m : (ℓ : Loc nD τ sig) → Buf (Elt F) ℓ) (ρ : Dev nD → PrngReg)

/-- The table as launched, on core `c`. -/
abbrev table (c : Dev nD) : Cert.Replicate.STable.Idx → Elt F .f32 := m ((c : Thread nD τ).loc main_arg0)

/-! ## The index maps, decided over the grid -/

/-- In the first half the output's plane is the column block's plane (below 4), its row block the column block's; the
    column array's last block index is 0; the output's column block index is below 2. -/
theorem first_half_indices : ∀ t : Fin cfg0.N, t.val < 16 →
    win0_0.index t (0 : Fin 3) = win0_2.index t (0 : Fin 3) ∧ win0_2.index t (0 : Fin 3) < 4
    ∧ win0_0.index t (1 : Fin 3) = win0_2.index t (1 : Fin 3) ∧ win0_2.index t (1 : Fin 3) < 2
    ∧ win0_0.index t (2 : Fin 3) = 0 ∧ win0_2.index t (2 : Fin 3) < 2 :=
  (by decide +kernel : ∀ t : Fin grid0.N, t.val < 16 → _)

/-- In the second half the output's plane is the row block's plane plus 4, its column block the row block's; the row
    array's middle block index is 0; the output's row block index is below 2. -/
theorem second_half_indices : ∀ t : Fin cfg0.N, 16 ≤ t.val →
    win0_1.index t (0 : Fin 3) + 4 = win0_2.index t (0 : Fin 3) ∧ win0_1.index t (0 : Fin 3) < 4
    ∧ win0_1.index t (2 : Fin 3) = win0_2.index t (2 : Fin 3) ∧ win0_2.index t (2 : Fin 3) < 2
    ∧ win0_1.index t (1 : Fin 3) = 0 ∧ win0_2.index t (1 : Fin 3) < 2 :=
  (by decide +kernel : ∀ t : Fin grid0.N, 16 ≤ t.val → _)

/-- Every block of the result is some point's. -/
theorem every_block_written : ∀ (p : Fin 8) (i k : Fin 2), ∃ t : Fin cfg0.N, win0_2.index t = ![p.val, i.val, k.val] :=
  (by decide +kernel : ∀ (p : Fin 8) (i k : Fin 2), ∃ t : Fin grid0.N, win0_2.index t = ![p.val, i.val, k.val])

/-! ## What a point writes back -/

/-- A point of the first half writes back its block of the planes. -/
theorem written_first_half (c : Dev nD) (t : Fin cfg0.N) (h0 : t.val < 16) (h1 : ¬16 ≤ t.val) :
    (dats m 0 c).flushed 2 t = ((cfg0.win 2).blk t).view.read (Elt F) (Cert.Replicate.planes (table m c)) := by
  rw [Value.flushed2_A m c t h0 h1, left_by_first_half]
  obtain ⟨e0, e1, e2, e3, e4, e5⟩ := first_half_indices t h0
  funext y
  have hy0 : (y 0).val < 1 := (y 0).isLt
  have hy1 : (y 1).val < 2048 := (y 1).isLt
  have hy2 : (y 2).val < 2048 := (y 2).isLt
  -- the table entry both sides are
  have hrow : win0_2.index t (1 : Fin 3) * 2048 + (y 1).val < 4096 := by omega
  let i : Cert.Replicate.STable.Idx := ix2 (⟨win0_2.index t (1 : Fin 3) * 2048 + (y 1).val, hrow⟩ : Fin 4096) (⟨win0_2.index t (0 : Fin 3), e1⟩ : Fin 4)
  trans table m c i
  · show k0_pay1 (iblk m c 0 t) y = _
    refine (column_broadcast_at (iblk m c 0 t) y (ix3 (0 : Fin 1) (⟨(y 1).val, hy1⟩ : Fin 2048) (0 : Fin 1)) rfl rfl rfl).trans ?_
    show V m c main_v1 (((cfg0.win 0).blk t).view.emb (ix3 (0 : Fin 1) (⟨(y 1).val, hy1⟩ : Fin 2048) (0 : Fin 1))) = _
    rw [column_array]
    refine Cert.Replicate.column_source_at _ _ _ _ i ?_ ?_
    · show win0_2.index t (1 : Fin 3) * 2048 + (y 1).val = win0_0.index t (1 : Fin 3) * 2048 + 1 * (y 1).val
      omega
    · show win0_2.index t (0 : Fin 3) = win0_0.index t (0 : Fin 3) * 1 + 1 * 0
      omega
  · symm
    show Cert.Replicate.planes (table m c) (((cfg0.win 2).blk t).view.emb y) = _
    refine Cert.Replicate.planes_low _ _ i ?_ ?_ ?_
    · show win0_2.index t (0 : Fin 3) * 1 + 1 * (y 0).val < 4
      omega
    · show win0_2.index t (1 : Fin 3) * 2048 + (y 1).val = win0_2.index t (1 : Fin 3) * 2048 + 1 * (y 1).val
      omega
    · show win0_2.index t (0 : Fin 3) = win0_2.index t (0 : Fin 3) * 1 + 1 * (y 0).val
      omega

/-- A point of the second half writes back its block of the planes. -/
theorem written_second_half (c : Dev nD) (t : Fin cfg0.N) (h0 : ¬t.val < 16) (h1 : 16 ≤ t.val) :
    (dats m 0 c).flushed 2 t = ((cfg0.win 2).blk t).view.read (Elt F) (Cert.Replicate.planes (table m c)) := by
  rw [Value.flushed2_B m c t h0 h1, left_by_second_half]
  obtain ⟨e0, e1, e2, e3, e4, e5⟩ := second_half_indices t h1
  funext y
  have hy0 : (y 0).val < 1 := (y 0).isLt
  have hy1 : (y 1).val < 2048 := (y 1).isLt
  have hy2 : (y 2).val < 2048 := (y 2).isLt
  have hrow : win0_2.index t (2 : Fin 3) * 2048 + (y 2).val < 4096 := by omega
  let i : Cert.Replicate.STable.Idx := ix2 (⟨win0_2.index t (2 : Fin 3) * 2048 + (y 2).val, hrow⟩ : Fin 4096) (⟨win0_1.index t (0 : Fin 3), e1⟩ : Fin 4)
  trans table m c i
  · show k0_pay2 (iblk m c 1 t) y = _
    refine (row_broadcast_at (iblk m c 1 t) y (ix3 (0 : Fin 1) (0 : Fin 1) (⟨(y 2).val, hy2⟩ : Fin 2048)) rfl rfl rfl).trans ?_
    show V m c main_v2 (((cfg0.win 1).blk t).view.emb (ix3 (0 : Fin 1) (0 : Fin 1) (⟨(y 2).val, hy2⟩ : Fin 2048))) = _
    rw [row_array]
    refine Cert.Replicate.row_source_at _ _ _ _ i ?_ ?_
    · show win0_2.index t (2 : Fin 3) * 2048 + (y 2).val = win0_1.index t (2 : Fin 3) * 2048 + 1 * (y 2).val
      omega
    · show win0_1.index t (0 : Fin 3) = win0_1.index t (0 : Fin 3) * 1 + 1 * 0
      omega
  · symm
    show Cert.Replicate.planes (table m c) (((cfg0.win 2).blk t).view.emb y) = _
    refine Cert.Replicate.planes_high _ _ i ?_ ?_ ?_
    · show ¬ win0_2.index t (0 : Fin 3) * 1 + 1 * (y 0).val < 4
      omega
    · show win0_2.index t (2 : Fin 3) * 2048 + (y 2).val = win0_2.index t (2 : Fin 3) * 2048 + 1 * (y 2).val
      omega
    · show win0_1.index t (0 : Fin 3) + 4 = win0_2.index t (0 : Fin 3) * 1 + 1 * (y 0).val
      omega

/-- Every point writes back its block of the planes. -/
theorem written (c : Dev nD) (t : Fin cfg0.N) :
    (dats m 0 c).flushed 2 t = ((cfg0.win 2).blk t).view.read (Elt F) (Cert.Replicate.planes (table m c)) := by
  by_cases h : t.val < 16
  · exact written_first_half m c t h (by omega)
  · exact written_second_half m c t h (by omega)

/-! ## The blocks cover the result -/

/-- An index of the result lies in point `t`'s block iff each coordinate lies in the block's range on its axis. -/
theorem mem_block (t : Fin cfg0.N) (j : S8x4096x4096.Idx) :
    j ∈ ((cfg0.win 2).blk t).view.set ↔ ∀ a : Fin 3, win0_2.index t a * S1x2048x2048.size a ≤ (j a).val
      ∧ (j a).val < win0_2.index t a * S1x2048x2048.size a + S1x2048x2048.size a := by
  show j ∈ ((View.whole main_v3).slice (win0_2.rect t)).set ↔ _
  rw [View.set_slice_whole, Rect.mem_set_unit]
  exact Iff.rfl

/-- Every index of the result lies in some point's block: plane `p`, row block `r / 2048`, column block `q / 2048`. -/
theorem covered (j : S8x4096x4096.Idx) :
    ∃ t : Fin cfg0.N, (cfg0.win 2).flush t = true ∧ j ∈ ((cfg0.win 2).blk t).view.set := by
  have hj0 : (j 0).val < 8 := (j 0).isLt
  have hj1 : (j 1).val < 4096 := (j 1).isLt
  have hj2 : (j 2).val < 4096 := (j 2).isLt
  obtain ⟨t, ht⟩ := every_block_written ⟨(j 0).val, hj0⟩ ⟨(j 1).val / 2048, by omega⟩ ⟨(j 2).val / 2048, by omega⟩
  have q0 : win0_2.index t (0 : Fin 3) = (j 0).val := congrFun ht 0
  have q1 : win0_2.index t (1 : Fin 3) = (j 1).val / 2048 := congrFun ht 1
  have q2 : win0_2.index t (2 : Fin 3) = (j 2).val / 2048 := congrFun ht 2
  refine ⟨t, flush0_2 t, ?_⟩
  rw [mem_block]
  intro a
  match a with
  | ⟨0, _⟩ => show win0_2.index t (0 : Fin 3) * 1 ≤ (j 0).val ∧ (j 0).val < win0_2.index t (0 : Fin 3) * 1 + 1; omega
  | ⟨1, _⟩ => show win0_2.index t (1 : Fin 3) * 2048 ≤ (j 1).val ∧ (j 1).val < win0_2.index t (1 : Fin 3) * 2048 + 2048; omega
  | ⟨2, _⟩ => show win0_2.index t (2 : Fin 3) * 2048 ≤ (j 2).val ∧ (j 2).val < win0_2.index t (2 : Fin 3) * 2048 + 2048; omega

/-! ## The result array, and the run -/

/-- After the last point the result array holds the eight planes of the table. -/
theorem result_is_planes (c : Dev nD) : (dats m 0 c).arrAt 2 cfg0.N = Cert.Replicate.planes (table m c) :=
  (dats m 0 c).arrAt_eq_of_cover 2 (Cert.Replicate.planes (table m c)) (fun t _ => written m c t) covered

/-- Every weakly fair execution terminates with the result at the eight planes of the table, the table unchanged. -/
theorem run : θ_run defs (onTc (τ := τ) (main (F := F))) ⟨m, fun _ => 0, ρ⟩ fun r => ∀ c : Dev nD,
      r.2.mem ((c : Thread nD τ).loc main_v3) = Cert.Replicate.planes (table m c)
      ∧ r.2.mem ((c : Thread nD τ).loc main_arg0) = m ((c : Thread nD τ).loc main_arg0) :=
  (θ_run defs _ _).mono (fun r h c => ⟨(h c).1.trans (result_is_planes m c), (h c).2⟩) (Value.run_blocks m ρ)

end Cert.KernelIdeal.Planes

end
-- ==== Proof.lean ====
/-
  The two programs compute one array, and nothing about it depends on the entries' values.

  From a table `x` of 4096 rows and 4 columns both build eight planes of side 4096 (`Replicate.planes`): plane
  `c < 4` holds `x i c` at (i, k), constant along each row; plane `c ≥ 4` holds `x k (c - 4)` at (i, k), constant
  down each column.

  * The reference transposes the table, broadcasts the transpose to four row-constant planes and to four
    column-constant planes, and concatenates the two stacks: `Replicate.stacked_halves` reads that term at an index.
  * The kernel transposes the table too, and a grid of 32 points fills the result one 2048 × 2048 block at a time —
    the first 16 points the row-constant planes from blocks of the transposed table's columns, the last 16 the
    column-constant planes from blocks of its rows. Each point's one store covers its whole block with the
    broadcast of what it loaded (`KernelBody`), each block written back is the corresponding block of the planes,
    and the 32 blocks cover the result (`KernelBlocks`).

  Every step moves entries and none computes with them: the equality is an identity of indices, it holds for
  infinite entries as for finite ones, and the precondition is not used. The idealization changed no operation of the
  kernel, so there is nothing to preserve. The three frames: the kernel's two are its generated frame runs; the
  reference's is its run with the result dropped.
-/
import proofs.«110674_j89575837926133_1_alg».proof.Defs
import proofs.«110674_j89575837926133_1_alg».proof.Proof.Gen.Kernel.Frame
import proofs.«110674_j89575837926133_1_alg».proof.Proof.Gen.KernelIdeal.Frame
import proofs.«110674_j89575837926133_1_alg».proof.Proof.Gen.ReferenceIdeal
import proofs.«110674_j89575837926133_1_alg».proof.Proof.Gen.ReferenceIdeal.Run
import proofs.«110674_j89575837926133_1_alg».proof.Proof.Gen.Pre_finite_inputs
import proofs.«110674_j89575837926133_1_alg».proof.Proof.Replicate
import proofs.«110674_j89575837926133_1_alg».proof.Proof.KernelBlocks

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both results are the eight planes of the one table: the kernel's by its blocks, the reference's by reading its
    stacked broadcasts at an index; the tables agree by hypothesis. -/
theorem algebraic : Cert.algebraic_KernelIdeal_ReferenceIdeal := by
  intro m ρ m' ρ' _ hagree
  refine ⟨fun c => Cert.Replicate.planes (Cert.KernelIdeal.Planes.table m c), Cert.KernelIdeal.Planes.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Replicate.stacked_halves _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
